-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1024x4096 : Shape := ⟨2, ![1024, 4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 22
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S4096x1024, .f32⟩
  | .hbm, ⟨14, _⟩ => ⟨S1024x4096, .f32⟩
  | .hbm, ⟨15, _⟩ => ⟨S1024x4096, .bf16⟩
  | .hbm, ⟨16, _⟩ => ⟨S4096x1024, .f32⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S8192x1024, .f32⟩
  | .hbm, ⟨21, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  slices_S4096x2048_S4096x1024_0_0 : S4096x2048.Slices ![0, 0] S4096x1024
  transposes_S4096x1024_S1024x4096_1_0 : S4096x1024.Transposes [1, 0] S1024x4096
  bitsLt_bf16_f32 : FTy.bits .bf16 < FTy.bits .f32
  slices_S4096x2048_S4096x1024_0_1024 : S4096x2048.Slices ![0, 1024] S4096x1024
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S4096x2048 : Shape := ⟨2, ![4096, 2048]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8192x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.FrameBits.lean ====
/-
  The fused LSTM-cell step as a run, and its frame, at any float instance.

  @main first forms, on the host, the stacked weight matrix W = [W_i; W_f; W_o; W_c] (4096 × 2048) and the
  stacked bias b = [b_i; b_f; b_o; b_c] (4096); it cuts W into its left and right halves of columns (the
  columns that meet x, the columns that meet h_prev), transposes each half to 1024 × 4096, and reshapes b
  to one row of 4096. None of these nine operations writes an argument array, so the region finds all eleven
  arguments as launched.

  The one region walks 64 grid points. Point t is handed rows 128 t … 128 t + 127 of x, of h_prev and of
  c_prev, and the two transposed weight halves and the bias row whole (their block index never moves, so they
  are fetched once, at the first point). From these six blocks the body computes two 128 × 1024 blocks — the
  rows' new cell state and new hidden state — and stores each whole into its output block, which is written
  back to rows 128 t … of the two result arrays. What the body finds in the two output blocks it reads but
  never uses.

  So the proof data is: every input block stays as fetched; after the body the hidden-state block is
  `hBlock` and the cell-state block `cBlock` of the point's six input blocks (each the single whole-block
  store's payload). The body's triple is run symbolically once, over arbitrary blocks; the library's launch
  theorem then gives the run of @main, and the frame claim reads the eleven arguments off its postcondition:
  the three streamed arrays through their windows, the eight weight and bias arguments as buffers no window
  stages.
-/
import proofs.«147682_j88639535055293_1_alg».proof.Proof.Gen.Kernel.Launch
import proofs.«147682_j88639535055293_1_alg».proof.Proof.Gen.Kernel.Skeleton
import proofs.«147682_j88639535055293_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the nine host operations. -/
abbrev entry (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes `main_arg0`: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg1`: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg2`: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg3`: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg4`: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg5`: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg6`: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg7`: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg8`: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg9`: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg10`: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the point fetches it or
    not (an unfetched window's block index has not moved), for any proof data over the entry contents whose
    body leaves the block in place. One lemma per input window. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- The eleven argument arrays end as launched, from any run to the library's frame postcondition over proof
    data whose arrays are the entry contents: x, h_prev and c_prev are windows' arrays, which no point writes
    back; the weights and biases are staged by no window and left as the region found them. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).1 2).trans (((dats 0 c).arrAt_in 2 rfl _).trans ((hA c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## The body's accesses: each a whole block -/

abbrev rowsRect : Rect S128x1024 := Rect.unit (s := S128x1024) ![0, 0] S128x1024.size inb_S128x1024_S128x1024_0_0
abbrev weightRect : Rect S1024x4096 := Rect.unit (s := S1024x4096) ![0, 0] S1024x4096.size inb_S1024x4096_S1024x4096_0_0
abbrev biasRect : Rect S1x4096 := Rect.unit (s := S1x4096) ![0, 0] S1x4096.size inb_S1x4096_S1x4096_0_0

/-! ## What the body leaves in the two output blocks -/

/-- The hidden-state block after the body, from the six input blocks (x rows, h_prev rows, c_prev rows, the two
    transposed weight halves, the bias row): its one whole-block store. -/
def hBlock (x h cp : Vec F S128x1024 .f32) (wx wh : Vec F S1024x4096 .bf16) (b : Vec F S1x4096 .f32) : Vec F S128x1024 .f32 :=
  View.canon [⟨rowsRect, k0_pay3 (View.ld x rowsRect) (View.ld h rowsRect) (View.ld wx weightRect) (View.ld wh weightRect) (View.ld b biasRect) (View.ld cp rowsRect)⟩]

/-- The cell-state block after the body, likewise. -/
def cBlock (x h cp : Vec F S128x1024 .f32) (wx wh : Vec F S1024x4096 .bf16) (b : Vec F S1x4096 .f32) : Vec F S128x1024 .f32 :=
  View.canon [⟨rowsRect, k0_pay2 (View.ld x rowsRect) (View.ld h rowsRect) (View.ld wx weightRect) (View.ld wh weightRect) (View.ld b biasRect) (View.ld cp rowsRect)⟩]

/-- One whole-block store covers the block. -/
theorem rows_cover (p0 : Vec F S128x1024 .f32) (y : S128x1024.Idx) :
    ∃ pc ∈ ([⟨rowsRect, p0⟩] : List (View.Piece (Elt F) S128x1024 .f32)), y ∈ pc.1.set :=
  View.cover_of_tiled [⟨rowsRect, p0⟩] S128x1024.size (by rfl) y

/-! ## The body's triple -/

set_option maxHeartbeats 1000000 in
/-- The body on whole staging memrefs — the six inputs' at contents `x h cp wx wh b`, the two outputs' at anything —
    runs to a continuation holding the inputs' as they were, the hidden-state output's at `hBlock` and the
    cell-state output's at `cBlock` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cp : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (hBlock x h cp wx wh b) ∗ owns (c : Thread nD τ) arg8 fullShare (cBlock x h cp wx wh b)) -∗ K ⟨⟩))
      ⊢ wp frame (wpE (defs₀ (F := F)) Variants.none c none) E (cc0__xlstm_kernel i arg1 harg1 arg2 harg2 arg3 harg3 arg4 harg4 arg5 harg5 arg6 harg6 arg7 harg7 arg8 harg8) K := by
  simp only [cc0__xlstm_kernel_eq_skeleton]; unfold cc0__xlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (rows_cover _)
  iexists _; isplitr
  swap; · iexact H7
  ipureintro
  exact View.read_writes_eq_canon _ _ _ (rows_cover _)

/-! ## The pipeline's proof data -/

/-- The proof data of the one pipeline on core `c`: the arrays as the region finds them; after the body at point
    `t` each input's buffer at its block and the two outputs' at `hBlock` / `cBlock` of the point's input blocks;
    the invariant holds only what the body never touches; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hBlock (blockAt m c 0 t) (blockAt m c 1 t) (blockAt m c 2 t) (blockAt m c 3 t) (blockAt m c 4 t) (blockAt m c 5 t)
    | ⟨7, _⟩ => cBlock (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the entry contents. -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = hBlock (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t = cBlock (blockAt m c 0 t) (blockAt m c 1 t) (blockAt m c 2 t) (blockAt m c 3 t) (blockAt m c 4 t) (blockAt m c 5 t) := by dsimp only [dats]

/-- Each input's current staging buffer holds its block at every point. -/
theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d
theorem staged5 (c : Dev nD) (t : Fin cfg0.N) (d) : (dats m 0 c).before 5 t d = blockAt m c 5 t :=
  staged5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data's blocks make of it and every other unscoped buffer as
    the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := A_eq m) (hΦ := fun _ _ => rfl)

/-- The frame: the program runs to the end, faults nowhere, and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frame

end
-- ==== Proof.FrameIdeal.lean ====
/-
  The fused LSTM-cell step as a run, and its frame, at any float instance.

  @main first forms, on the host, the stacked weight matrix W = [W_i; W_f; W_o; W_c] (4096 × 2048) and the
  stacked bias b = [b_i; b_f; b_o; b_c] (4096); it cuts W into its left and right halves of columns (the
  columns that meet x, the columns that meet h_prev), transposes each half to 1024 × 4096, and reshapes b
  to one row of 4096. None of these nine operations writes an argument array, so the region finds all eleven
  arguments as launched.

  The one region walks 64 grid points. Point t is handed rows 128 t … 128 t + 127 of x, of h_prev and of
  c_prev, and the two transposed weight halves and the bias row whole (their block index never moves, so they
  are fetched once, at the first point). From these six blocks the body computes two 128 × 1024 blocks — the
  rows' new cell state and new hidden state — and stores each whole into its output block, which is written
  back to rows 128 t … of the two result arrays. What the body finds in the two output blocks it reads but
  never uses.

  So the proof data is: every input block stays as fetched; after the body the hidden-state block is
  `hBlock` and the cell-state block `cBlock` of the point's six input blocks (each the single whole-block
  store's payload). The body's triple is run symbolically once, over arbitrary blocks; the library's launch
  theorem then gives the run of @main, and the frame claim reads the eleven arguments off its postcondition:
  the three streamed arrays through their windows, the eight weight and bias arguments as buffers no window
  stages.
-/
import proofs.«147682_j88639535055293_1_alg».proof.Proof.Gen.KernelIdeal.Launch
import proofs.«147682_j88639535055293_1_alg».proof.Proof.Gen.KernelIdeal.Skeleton
import proofs.«147682_j88639535055293_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the nine host operations. -/
abbrev entry (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes `main_arg0`: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg1`: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg2`: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg3`: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg4`: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg5`: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg6`: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg7`: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg8`: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg9`: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg10`: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the point fetches it or
    not (an unfetched window's block index has not moved), for any proof data over the entry contents whose
    body leaves the block in place. One lemma per input window. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- The eleven argument arrays end as launched, from any run to the library's frame postcondition over proof
    data whose arrays are the entry contents: x, h_prev and c_prev are windows' arrays, which no point writes
    back; the weights and biases are staged by no window and left as the region found them. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).1 2).trans (((dats 0 c).arrAt_in 2 rfl _).trans ((hA c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## The body's accesses: each a whole block -/

abbrev rowsRect : Rect S128x1024 := Rect.unit (s := S128x1024) ![0, 0] S128x1024.size inb_S128x1024_S128x1024_0_0
abbrev weightRect : Rect S1024x4096 := Rect.unit (s := S1024x4096) ![0, 0] S1024x4096.size inb_S1024x4096_S1024x4096_0_0
abbrev biasRect : Rect S1x4096 := Rect.unit (s := S1x4096) ![0, 0] S1x4096.size inb_S1x4096_S1x4096_0_0

/-! ## What the body leaves in the two output blocks -/

/-- The hidden-state block after the body, from the six input blocks (x rows, h_prev rows, c_prev rows, the two
    transposed weight halves, the bias row): its one whole-block store. -/
def hBlock (x h cp : Vec F S128x1024 .f32) (wx wh : Vec F S1024x4096 .bf16) (b : Vec F S1x4096 .f32) : Vec F S128x1024 .f32 :=
  View.canon [⟨rowsRect, k0_pay3 (View.ld x rowsRect) (View.ld h rowsRect) (View.ld wx weightRect) (View.ld wh weightRect) (View.ld b biasRect) (View.ld cp rowsRect)⟩]

/-- The cell-state block after the body, likewise. -/
def cBlock (x h cp : Vec F S128x1024 .f32) (wx wh : Vec F S1024x4096 .bf16) (b : Vec F S1x4096 .f32) : Vec F S128x1024 .f32 :=
  View.canon [⟨rowsRect, k0_pay2 (View.ld x rowsRect) (View.ld h rowsRect) (View.ld wx weightRect) (View.ld wh weightRect) (View.ld b biasRect) (View.ld cp rowsRect)⟩]

/-- One whole-block store covers the block. -/
theorem rows_cover (p0 : Vec F S128x1024 .f32) (y : S128x1024.Idx) :
    ∃ pc ∈ ([⟨rowsRect, p0⟩] : List (View.Piece (Elt F) S128x1024 .f32)), y ∈ pc.1.set :=
  View.cover_of_tiled [⟨rowsRect, p0⟩] S128x1024.size (by rfl) y

/-! ## The body's triple -/

set_option maxHeartbeats 1000000 in
/-- The body on whole staging memrefs — the six inputs' at contents `x h cp wx wh b`, the two outputs' at anything —
    runs to a continuation holding the inputs' as they were, the hidden-state output's at `hBlock` and the
    cell-state output's at `cBlock` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cp : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (hBlock x h cp wx wh b) ∗ owns (c : Thread nD τ) arg8 fullShare (cBlock x h cp wx wh b)) -∗ K ⟨⟩))
      ⊢ wp frame (wpE (defs₀ (F := F)) Variants.none c none) E (cc0__xlstm_kernel i arg1 harg1 arg2 harg2 arg3 harg3 arg4 harg4 arg5 harg5 arg6 harg6 arg7 harg7 arg8 harg8) K := by
  simp only [cc0__xlstm_kernel_eq_skeleton]; unfold cc0__xlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (rows_cover _)
  iexists _; isplitr
  swap; · iexact H7
  ipureintro
  exact View.read_writes_eq_canon _ _ _ (rows_cover _)

/-! ## The pipeline's proof data -/

/-- The proof data of the one pipeline on core `c`: the arrays as the region finds them; after the body at point
    `t` each input's buffer at its block and the two outputs' at `hBlock` / `cBlock` of the point's input blocks;
    the invariant holds only what the body never touches; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hBlock (blockAt m c 0 t) (blockAt m c 1 t) (blockAt m c 2 t) (blockAt m c 3 t) (blockAt m c 4 t) (blockAt m c 5 t)
    | ⟨7, _⟩ => cBlock (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the entry contents. -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = hBlock (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t = cBlock (blockAt m c 0 t) (blockAt m c 1 t) (blockAt m c 2 t) (blockAt m c 3 t) (blockAt m c 4 t) (blockAt m c 5 t) := by dsimp only [dats]

/-- Each input's current staging buffer holds its block at every point. -/
theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d
theorem staged5 (c : Dev nD) (t : Fin cfg0.N) (d) : (dats m 0 c).before 5 t d = blockAt m c 5 t :=
  staged5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data's blocks make of it and every other unscoped buffer as
    the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := A_eq m) (hΦ := fun _ _ => rfl)

/-- The frame: the program runs to the end, faults nowhere, and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frame

end
-- ==== Proof.Spec.lean ====
/-
  What one LSTM-cell step computes, index by index, on the extended reals.

  The inputs are the batch's rows x, h_prev, c_prev (8192 × 1024 each), the four gates' weight matrices
  stacked into W (4096 × 2048: row n is row n mod 1024 of gate n / 1024, in the order input, forget, output,
  candidate) and their biases stacked into b (4096). Column k < 1024 of W meets x's column k; column
  1024 + k meets h_prev's column k.

  Pre-activation n of row r:   gate r n = Σ_k x[r,k]·W[n,k] + Σ_k h[r,k]·W[n,1024+k] + b[n].
  With σ the logistic function,
    c_new[r,j] = σ(gate r (1024+j)) · c_prev[r,j] + σ(gate r j) · tanh(gate r (3072+j)),
    h_new[r,j] = σ(gate r (2048+j)) · tanh(c_new[r,j]).

  The one law the two programs' arrangements differ by: a sum over 2048 columns is the sum over its first
  1024 plus the sum over its last 1024 — regrouping in a commutative monoid, true at the infinities too.
-/
import Idealize.ShloMosaic.PureOps.Ideal
import Idealize.ShloMosaic.Lib.ValueIdx

noncomputable section

namespace Cert.Spec

open Idealize.ShloMosaic Idealize.ShloMosaic.ValueIdx

/-- The shape of x, h_prev, c_prev and of the two results. -/
abbrev Rows : Shape := ⟨2, ![8192, 1024]⟩
/-- The shape of the stacked weight matrix. -/
abbrev Stack : Shape := ⟨2, ![4096, 2048]⟩
/-- The shape of the stacked bias. -/
abbrev Bias : Shape := ⟨1, ![4096]⟩

/-- Column `k` of the half of W that meets x. -/
def lo (k : Fin 1024) : Fin 2048 := ⟨k.val, by have := k.isLt; omega⟩
/-- Column `1024 + k` of W: the half that meets h_prev. -/
def hi (k : Fin 1024) : Fin 2048 := ⟨1024 + k.val, by have := k.isLt; omega⟩
/-- Pre-activation column `1024 q + j`: unit `j` of gate `q` (0 input, 1 forget, 2 output, 3 candidate). -/
def col (q : Fin 4) (j : Fin 1024) : Fin 4096 := ⟨1024 * q.val + j.val, by have := q.isLt; have := j.isLt; omega⟩

@[simp] theorem lo_val (k : Fin 1024) : (lo k).val = k.val := rfl
@[simp] theorem hi_val (k : Fin 1024) : (hi k).val = 1024 + k.val := rfl
@[simp] theorem col_val (q : Fin 4) (j : Fin 1024) : (col q j).val = 1024 * q.val + j.val := rfl

/-- Pre-activation `n` of batch row `r`. -/
def gate (x h : FVec Ideal Rows .f32) (W : FVec Ideal Stack .f32) (b : FVec Ideal Bias .f32) (r : Fin 8192) (n : Fin 4096) : EReal :=
  (∑ k : Fin 1024, x (ix2 r k) * W (ix2 n (lo k)) + ∑ k : Fin 1024, h (ix2 r k) * W (ix2 n (hi k))) + b (ix1 n)

/-- The new cell state of row `r`, unit `j`. -/
def cellAt (x h cp : FVec Ideal Rows .f32) (W : FVec Ideal Stack .f32) (b : FVec Ideal Bias .f32) (r : Fin 8192) (j : Fin 1024) : EReal :=
  Ideal.logistic (gate x h W b r (col 1 j)) * cp (ix2 r j)
    + Ideal.logistic (gate x h W b r (col 0 j)) * Ideal.tanh (gate x h W b r (col 3 j))

/-- The new hidden state of row `r`, unit `j`. -/
def hiddenAt (x h cp : FVec Ideal Rows .f32) (W : FVec Ideal Stack .f32) (b : FVec Ideal Bias .f32) (r : Fin 8192) (j : Fin 1024) : EReal :=
  Ideal.logistic (gate x h W b r (col 2 j)) * Ideal.tanh (cellAt x h cp W b r j)

/-- The new cell state as an array. -/
def cellNew (x h cp : FVec Ideal Rows .f32) (W : FVec Ideal Stack .f32) (b : FVec Ideal Bias .f32) : FVec Ideal Rows .f32 :=
  fun i => cellAt x h cp W b (i 0) (i 1)

/-- The new hidden state as an array. -/
def hiddenNew (x h cp : FVec Ideal Rows .f32) (W : FVec Ideal Stack .f32) (b : FVec Ideal Bias .f32) : FVec Ideal Rows .f32 :=
  fun i => hiddenAt x h cp W b (i 0) (i 1)

theorem cellNew_ix2 (x h cp : FVec Ideal Rows .f32) (W : FVec Ideal Stack .f32) (b : FVec Ideal Bias .f32) (r : Fin 8192) (j : Fin 1024) :
    cellNew x h cp W b (ix2 r j) = cellAt x h cp W b r j := rfl

theorem hiddenNew_ix2 (x h cp : FVec Ideal Rows .f32) (W : FVec Ideal Stack .f32) (b : FVec Ideal Bias .f32) (r : Fin 8192) (j : Fin 1024) :
    hiddenNew x h cp W b (ix2 r j) = hiddenAt x h cp W b r j := rfl

/-- A sum over 2048 columns is the sum over the first 1024 plus the sum over the last 1024. -/
theorem sum_halves {M : Type*} [AddCommMonoid M] (f : Fin 2048 → M) :
    ∑ k : Fin 2048, f k = ∑ k : Fin 1024, f (lo k) + ∑ k : Fin 1024, f (hi k) :=
  Fin.sum_univ_add (a := 1024) (b := 1024) f

end Cert.Spec

end
-- ==== Proof.KernelPayload.lean ====
/-
  The body's three named values at an index, at the ideal instance.
-/
import proofs.«147682_j88639535055293_1_alg».proof.Proof.Gen.KernelIdeal.Skeleton
import proofs.«147682_j88639535055293_1_alg».proof.Proof.Spec
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.Spec
open Idealize.ShloMosaic Idealize.ShloMosaic.TcCoe Idealize.ShloMosaic.ValueIdx Idealize.SL.Sem

/-- Pre-activation `n` of row `p` of a block: the x rows against the first transposed weight half, the h_prev rows
    against the second, plus the bias row. -/
def blockGate (xb hb : Vec Ideal S128x1024 .f32) (wx wh : Vec Ideal S1024x4096 .bf16) (b2 : Vec Ideal S1x4096 .f32) (p : Fin 128) (n : Fin 4096) : EReal :=
  (∑ k : Fin 1024, xb (ix2 p k) * wx (ix2 k n) + ∑ k : Fin 1024, hb (ix2 p k) * wh (ix2 k n)) + b2 (ix2 (0 : Fin 1) n)

/-! ## The product's operand indices

The product contracts the left operand's axis 1 with the right operand's axis 0 and has no batch axis: at the output
index (r, c) and contraction position k the left operand is read at (r, k) and the right one at (k, c). One lemma per
operand axis. -/

/-- The left operand's row is the output's row. -/
theorem lhs_row (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl

/-- The left operand's column is the contraction position. -/
theorem lhs_col (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q

/-- The right operand's row is the contraction position. -/
theorem rhs_row (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q

/-- The right operand's column is the output's column. -/
theorem rhs_col (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A product into the zero accumulator, at (p, n): the sum over the 1024 contraction positions of the products of
    the left operand's row p with the right operand's column n. -/
theorem product_apply (a : FVec Ideal S128x1024 .bf16) (w : FVec Ideal S1024x4096 .bf16) (p : Fin 128) (n : Fin 4096) :
    matmul (F := Ideal) dot_S128x1024_S1024x4096_S128x4096_1_0_0_1_n_n none a w (constant (F := Ideal) S128x4096 .f32 0x00000000#32) (ix2 p n)
      = ∑ k : Fin 1024, a (ix2 p k) * w (ix2 k n) := by
  simp only [matmul]
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p n) ((contrEquiv1 dot_S128x1024_S1024x4096_S128x4096_1_0_0_1_n_n 1024 rfl rfl).symm k) = ix2 p k := funext fun ax => Fin.ext (by
    match ax with
    | ⟨0, _⟩ => exact lhs_row _ _
    | ⟨1, _⟩ => exact (lhs_col _ _).trans hk)
  have er : dot_S128x1024_S1024x4096_S128x4096_1_0_0_1_n_n.rhsIdx (ix2 p n) ((contrEquiv1 dot_S128x1024_S1024x4096_S128x4096_1_0_0_1_n_n 1024 rfl rfl).symm k) = ix2 k n := funext fun ax => Fin.ext (by
    match ax with
    | ⟨0, _⟩ => exact (rhs_row _ _).trans hk
    | ⟨1, _⟩ => exact rhs_col _ _)
  rw [el, er]

/-- The 128 × 4096 block of pre-activations at an index. -/
theorem pay1_apply (xb hb : Vec Ideal S128x1024 .f32) (wx wh : Vec Ideal S1024x4096 .bf16) (b2 : Vec Ideal S1x4096 .f32) (p : Fin 128) (n : Fin 4096) :
    k0_pay1 (F := Ideal) xb hb wx wh b2 (ix2 p n) = blockGate xb hb wx wh b2 p n := by
  unfold k0_pay1
  -- the same-shape casts are the identity
  have hwx : shapeCast S1024x4096 wx shapeCasts_S1024x4096_S1024x4096 = wx := shapeCast_self wx _
  have hwh : shapeCast S1024x4096 wh shapeCasts_S1024x4096_S1024x4096 = wh := shapeCast_self wh _
  have hb2 : shapeCast S1x4096 b2 shapeCasts_S1x4096_S1x4096 = b2 := shapeCast_self b2 _
  rw [hwx, hwh, hb2]
  -- the two sums are read pointwise
  show (matmul (F := Ideal) dot_S128x1024_S1024x4096_S128x4096_1_0_0_1_n_n none (truncf .bf16 xb bitsLt_bf16_f32) wx (constant (F := Ideal) S128x4096 .f32 0x00000000#32) (ix2 p n)
        + matmul (F := Ideal) dot_S128x1024_S1024x4096_S128x4096_1_0_0_1_n_n none (truncf .bf16 hb bitsLt_bf16_f32) wh (constant (F := Ideal) S128x4096 .f32 0x00000000#32) (ix2 p n))
      + broadcastTo S128x4096 b2 broadcasts_S1x4096_S128x4096 (ix2 p n) = _
  rw [product_apply (truncf .bf16 xb bitsLt_bf16_f32) wx p n, product_apply (truncf .bf16 hb bitsLt_bf16_f32) wh p n,
    broadcastTo_1b_ab_apply b2 broadcasts_S1x4096_S128x4096 p n]
  -- narrowing to bf16 does nothing on the extended reals
  rfl

/-! ## The four column slices

Gate q occupies columns 1024 q … 1024 q + 1023 of the block of pre-activations. -/

theorem slice_gate0 (g : FVec Ideal S128x4096 .f32) (p : Fin 128) (j : Fin 1024) :
    extractStridedSlice S128x1024 ![0, 0] g slices_S128x4096_o0_0_S128x1024 (ix2 p j) = g (ix2 p (col 0 j)) :=
  slice2_axis1_apply 0 g slices_S128x4096_o0_0_S128x1024 p j (col 0 j) (by simp)

theorem slice_gate1 (g : FVec Ideal S128x4096 .f32) (p : Fin 128) (j : Fin 1024) :
    extractStridedSlice S128x1024 ![0, 1024] g slices_S128x4096_o0_1024_S128x1024 (ix2 p j) = g (ix2 p (col 1 j)) :=
  slice2_axis1_apply 1024 g slices_S128x4096_o0_1024_S128x1024 p j (col 1 j) (by simp)

theorem slice_gate2 (g : FVec Ideal S128x4096 .f32) (p : Fin 128) (j : Fin 1024) :
    extractStridedSlice S128x1024 ![0, 2048] g slices_S128x4096_o0_2048_S128x1024 (ix2 p j) = g (ix2 p (col 2 j)) :=
  slice2_axis1_apply 2048 g slices_S128x4096_o0_2048_S128x1024 p j (col 2 j) (by simp)

theorem slice_gate3 (g : FVec Ideal S128x4096 .f32) (p : Fin 128) (j : Fin 1024) :
    extractStridedSlice S128x1024 ![0, 3072] g slices_S128x4096_o0_3072_S128x1024 (ix2 p j) = g (ix2 p (col 3 j)) :=
  slice2_axis1_apply 3072 g slices_S128x4096_o0_3072_S128x1024 p j (col 3 j) (by simp)

/-- The new cell-state block at an index. -/
theorem pay2_apply (xb hb : Vec Ideal S128x1024 .f32) (wx wh : Vec Ideal S1024x4096 .bf16) (b2 : Vec Ideal S1x4096 .f32) (cb : Vec Ideal S128x1024 .f32) (p : Fin 128) (j : Fin 1024) :
    k0_pay2 (F := Ideal) xb hb wx wh b2 cb (ix2 p j)
      = Ideal.logistic (blockGate xb hb wx wh b2 p (col 1 j)) * cb (ix2 p j)
        + Ideal.logistic (blockGate xb hb wx wh b2 p (col 0 j)) * Ideal.tanh (blockGate xb hb wx wh b2 p (col 3 j)) := by
  unfold k0_pay2
  show Ideal.logistic (extractStridedSlice S128x1024 ![0, 1024] (k0_pay1 (F := Ideal) xb hb wx wh b2) slices_S128x4096_o0_1024_S128x1024 (ix2 p j)) * cb (ix2 p j)
      + Ideal.logistic (extractStridedSlice S128x1024 ![0, 0] (k0_pay1 (F := Ideal) xb hb wx wh b2) slices_S128x4096_o0_0_S128x1024 (ix2 p j))
        * Ideal.tanh (extractStridedSlice S128x1024 ![0, 3072] (k0_pay1 (F := Ideal) xb hb wx wh b2) slices_S128x4096_o0_3072_S128x1024 (ix2 p j)) = _
  rw [slice_gate1 (k0_pay1 (F := Ideal) xb hb wx wh b2) p j, slice_gate0 (k0_pay1 (F := Ideal) xb hb wx wh b2) p j, slice_gate3 (k0_pay1 (F := Ideal) xb hb wx wh b2) p j,
    pay1_apply xb hb wx wh b2 p (col 1 j), pay1_apply xb hb wx wh b2 p (col 0 j), pay1_apply xb hb wx wh b2 p (col 3 j)]

/-- The new hidden-state block at an index. -/
theorem pay3_apply (xb hb : Vec Ideal S128x1024 .f32) (wx wh : Vec Ideal S1024x4096 .bf16) (b2 : Vec Ideal S1x4096 .f32) (cb : Vec Ideal S128x1024 .f32) (p : Fin 128) (j : Fin 1024) :
    k0_pay3 (F := Ideal) xb hb wx wh b2 cb (ix2 p j)
      = Ideal.logistic (blockGate xb hb wx wh b2 p (col 2 j)) * Ideal.tanh (k0_pay2 (F := Ideal) xb hb wx wh b2 cb (ix2 p j)) := by
  unfold k0_pay3
  show Ideal.logistic (extractStridedSlice S128x1024 ![0, 2048] (k0_pay1 (F := Ideal) xb hb wx wh b2) slices_S128x4096_o0_2048_S128x1024 (ix2 p j))
      * Ideal.tanh (k0_pay2 (F := Ideal) xb hb wx wh b2 cb (ix2 p j)) = _
  rw [slice_gate2 (k0_pay1 (F := Ideal) xb hb wx wh b2) p j, pay1_apply xb hb wx wh b2 p (col 2 j)]

end Cert.KernelIdeal.Payload

end
-- ==== Proof.KernelValue.lean ====
/-
  The idealized kernel's two result arrays are the specification's.

  At the region's entry the three host-computed window arrays are, index by index, entries of the stacked
  weight matrix W and bias b: the first transposed half at (k, n) is W[n, k], the second is W[n, 1024 + k],
  and the bias row at (0, n) is b[n]. Grid point t is handed rows 128 t + p (p < 128) of x, h_prev and
  c_prev, so by the payloads read at an index the block it writes back is rows 128 t … 128 t + 127 of the
  specification's arrays. The 64 blocks tile the 8192 rows (row r lies in block r / 128), hence each result
  array ends as the specification's array whole.
-/
import proofs.«147682_j88639535055293_1_alg».proof.Proof.FrameIdeal
import proofs.«147682_j88639535055293_1_alg».proof.Proof.KernelPayload
import Idealize.ShloMosaic.Lib.Pipeline.Value
import Idealize.ShloMosaic.Lib.ValueLayout
import Idealize.ShloMosaic.Lib.StableHlo.Run

set_option maxRecDepth 16384

noncomputable section

namespace Cert.KernelIdeal.CellValue

open Cert.KernelIdeal Cert.KernelIdeal.Gen Cert.KernelIdeal.Frame Cert.KernelIdeal.Payload Cert.Spec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The stacked weights and bias, and the window arrays the host forms from them -/

/-- The four gates' weight matrices stacked (4096 × 2048), as @main forms it from the arguments. -/
abbrev stackW (c : Dev nD) : FVec Ideal S4096x2048 .f32 :=
  concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0

/-- The four biases stacked (4096). -/
abbrev stackB (c : Dev nD) : FVec Ideal S4096 .f32 :=
  concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0

/-- The first weight window's array at the region's entry: the left half of W's columns, transposed. -/
theorem entry_wx (c : Dev nD) : (entry m c main_v4 : S1024x4096.Idx → EReal)
    = truncf .bf16 (transpose S1024x4096 [1, 0] (extractStridedSlice S4096x1024 ![0, 0] (stackW m c) slices_S4096x2048_S4096x1024_0_0) transposes_S4096x1024_S1024x4096_1_0) bitsLt_bf16_f32 := by
  dsimp only [entry, hostOps0]; after_results; rfl

/-- The second weight window's array: the right half of W's columns, transposed. -/
theorem entry_wh (c : Dev nD) : (entry m c main_v7 : S1024x4096.Idx → EReal)
    = truncf .bf16 (transpose S1024x4096 [1, 0] (extractStridedSlice S4096x1024 ![0, 1024] (stackW m c) slices_S4096x2048_S4096x1024_0_1024) transposes_S4096x1024_S1024x4096_1_0) bitsLt_bf16_f32 := by
  dsimp only [entry, hostOps0]; after_results; rfl

/-- The bias window's array: b as one row. -/
theorem entry_b (c : Dev nD) : (entry m c main_v8 : S1x4096.Idx → EReal)
    = shapeCast S1x4096 (stackB m c) shapeCasts_S4096_S1x4096 := by
  dsimp only [entry, hostOps0]; after_results; rfl

/-! ## The window arrays at an index -/

theorem entry_wx_apply (c : Dev nD) (k : Fin 1024) (n : Fin 4096) :
    (entry m c main_v4 : S1024x4096.Idx → EReal) (ix2 k n) = stackW m c (ix2 n (lo k)) := by
  rw [entry_wx, truncf_apply, transpose_ix2_apply]
  exact slice2_axis1_apply 0 _ _ n k (lo k) (by rw [lo_val, Nat.zero_add])

theorem entry_wh_apply (c : Dev nD) (k : Fin 1024) (n : Fin 4096) :
    (entry m c main_v7 : S1024x4096.Idx → EReal) (ix2 k n) = stackW m c (ix2 n (hi k)) := by
  rw [entry_wh, truncf_apply, transpose_ix2_apply]
  exact slice2_axis1_apply 1024 _ _ n k (hi k) (hi_val k)

theorem entry_b_apply (c : Dev nD) (n : Fin 4096) :
    (entry m c main_v8 : S1x4096.Idx → EReal) (ix2 (0 : Fin 1) n) = stackB m c (ix1 n) := by
  rw [entry_b]
  exact shapeCast_a_1a_apply _ _ 0 n

/-! ## Where a point's blocks sit -/

/-- The index maps over the grid: the three streamed inputs and the two outputs are at block row `t`, block column 0;
    the weights and the bias are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem N_eq : cfg0.N = 64 := N_0

/-- Row `p` of point `t`'s blocks is batch row `128 t + p`. -/
def row (t : Fin cfg0.N) (p : Fin 128) : Fin 8192 :=
  ⟨128 * t.val + p.val, by have h1 : t.val < 64 := lt_of_lt_of_eq t.isLt N_eq; have h2 := p.isLt; omega⟩

@[simp] theorem row_val (t : Fin cfg0.N) (p : Fin 128) : (row t p).val = 128 * t.val + p.val := rfl

/-! ## The input blocks at coordinates -/

theorem x_block (c : Dev nD) (t : Fin cfg0.N) (p : Fin 128) (k : Fin 1024) :
    blockAt m c 0 t (ix2 p k) = m ((c : Thread nD τ).loc main_arg0) (ix2 (row t p) k) := by
  obtain ⟨e0, e1, -⟩ := idx_facts t
  show entry m c main_arg0 (((cfg0.win 0).blk t).view.emb (ix2 p k)) = _
  rw [entry_main_arg0]
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 1024 + 1 * k.val = k.val; omega

theorem h_block (c : Dev nD) (t : Fin cfg0.N) (p : Fin 128) (k : Fin 1024) :
    blockAt m c 1 t (ix2 p k) = m ((c : Thread nD τ).loc main_arg1) (ix2 (row t p) k) := by
  obtain ⟨-, -, e0, e1, -⟩ := idx_facts t
  show entry m c main_arg1 (((cfg0.win 1).blk t).view.emb (ix2 p k)) = _
  rw [entry_main_arg1]
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega

theorem c_block (c : Dev nD) (t : Fin cfg0.N) (p : Fin 128) (k : Fin 1024) :
    blockAt m c 2 t (ix2 p k) = m ((c : Thread nD τ).loc main_arg2) (ix2 (row t p) k) := by
  obtain ⟨-, -, -, -, e0, e1, -⟩ := idx_facts t
  show entry m c main_arg2 (((cfg0.win 2).blk t).view.emb (ix2 p k)) = _
  rw [entry_main_arg2]
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1024 + 1 * k.val = k.val; omega

theorem wx_block (c : Dev nD) (t : Fin cfg0.N) (k : Fin 1024) (n : Fin 4096) :
    blockAt m c 3 t (ix2 k n) = stackW m c (ix2 n (lo k)) := by
  obtain ⟨-, -, -, -, -, -, e0, e1, -⟩ := idx_facts t
  show (entry m c main_v4 : S1024x4096.Idx → EReal) (((cfg0.win 3).blk t).view.emb (ix2 k n)) = _
  rw [← entry_wx_apply m c k n]
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * n.val = n.val; omega

theorem wh_block (c : Dev nD) (t : Fin cfg0.N) (k : Fin 1024) (n : Fin 4096) :
    blockAt m c 4 t (ix2 k n) = stackW m c (ix2 n (hi k)) := by
  obtain ⟨-, -, -, -, -, -, -, -, e0, e1, -⟩ := idx_facts t
  show (entry m c main_v7 : S1024x4096.Idx → EReal) (((cfg0.win 4).blk t).view.emb (ix2 k n)) = _
  rw [← entry_wh_apply m c k n]
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * n.val = n.val; omega

theorem b_block (c : Dev nD) (t : Fin cfg0.N) (n : Fin 4096) :
    blockAt m c 5 t (ix2 (0 : Fin 1) n) = stackB m c (ix1 n) := by
  obtain ⟨-, -, -, -, -, -, -, -, -, -, e0, e1, -⟩ := idx_facts t
  show (entry m c main_v8 : S1x4096.Idx → EReal) (((cfg0.win 5).blk t).view.emb (ix2 (0 : Fin 1) n)) = _
  rw [← entry_b_apply m c n]
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 4096 + 1 * n.val = n.val; omega

/-! ## From blocks to rows of the specification -/

section blocks
variable (X H C : FVec Ideal Rows .f32) (W : FVec Ideal Stack .f32) (B : FVec Ideal Bias .f32)
  (xb hb cb : Vec Ideal S128x1024 .f32) (wx wh : Vec Ideal S1024x4096 .bf16) (b2 : Vec Ideal S1x4096 .f32)
  (r : Fin 8192) (p : Fin 128)

/-- If row `p` of the three streamed blocks is batch row `r` and the weight and bias blocks are W's halves transposed
    and b, the block's pre-activations of row `p` are the specification's of row `r`. -/
theorem gate_of_blocks (hx : ∀ k, xb (ix2 p k) = X (ix2 r k)) (hh : ∀ k, hb (ix2 p k) = H (ix2 r k))
    (hwx : ∀ k n, wx (ix2 k n) = W (ix2 n (lo k))) (hwh : ∀ k n, wh (ix2 k n) = W (ix2 n (hi k)))
    (hb2 : ∀ n, b2 (ix2 (0 : Fin 1) n) = B (ix1 n)) (n : Fin 4096) :
    blockGate xb hb wx wh b2 p n = gate X H W B r n := by
  unfold blockGate gate
  simp only [hx, hh, hwx, hwh, hb2]

theorem cell_of_blocks (hx : ∀ k, xb (ix2 p k) = X (ix2 r k)) (hh : ∀ k, hb (ix2 p k) = H (ix2 r k))
    (hc : ∀ j, cb (ix2 p j) = C (ix2 r j))
    (hwx : ∀ k n, wx (ix2 k n) = W (ix2 n (lo k))) (hwh : ∀ k n, wh (ix2 k n) = W (ix2 n (hi k)))
    (hb2 : ∀ n, b2 (ix2 (0 : Fin 1) n) = B (ix1 n)) (j : Fin 1024) :
    k0_pay2 (F := Ideal) xb hb wx wh b2 cb (ix2 p j) = cellAt X H C W B r j := by
  rw [pay2_apply]
  unfold cellAt
  rw [gate_of_blocks X H W B xb hb wx wh b2 r p hx hh hwx hwh hb2, gate_of_blocks X H W B xb hb wx wh b2 r p hx hh hwx hwh hb2,
    gate_of_blocks X H W B xb hb wx wh b2 r p hx hh hwx hwh hb2, hc]

theorem hidden_of_blocks (hx : ∀ k, xb (ix2 p k) = X (ix2 r k)) (hh : ∀ k, hb (ix2 p k) = H (ix2 r k))
    (hc : ∀ j, cb (ix2 p j) = C (ix2 r j))
    (hwx : ∀ k n, wx (ix2 k n) = W (ix2 n (lo k))) (hwh : ∀ k n, wh (ix2 k n) = W (ix2 n (hi k)))
    (hb2 : ∀ n, b2 (ix2 (0 : Fin 1) n) = B (ix1 n)) (j : Fin 1024) :
    k0_pay3 (F := Ideal) xb hb wx wh b2 cb (ix2 p j) = hiddenAt X H C W B r j := by
  rw [pay3_apply, cell_of_blocks X H C W B xb hb cb wx wh b2 r p hx hh hc hwx hwh hb2]
  unfold hiddenAt
  rw [gate_of_blocks X H W B xb hb wx wh b2 r p hx hh hwx hwh hb2]

end blocks

/-! ## What a point writes back, the cover, and the arrays after the run -/

theorem hz : (![0, 0] : Fin 2 → Nat) = fun _ => 0 := funext fun a => by fin_cases a <;> rfl

/-- What point `t` writes back into the hidden array is rows 128 t … 128 t + 127 of the specification's. -/
theorem flushed_hidden (c : Dev nD) (t : Fin cfg0.N) :
    (dats m 0 c).flushed 6 t = ((cfg0.win 6).blk t).view.read (Elt Ideal) (hiddenNew (m ((c : Thread nD τ).loc main_arg0)) (m ((c : Thread nD τ).loc main_arg1)) (m ((c : Thread nD τ).loc main_arg2)) (stackW m c) (stackB m c)) := by
  obtain ⟨-, -, -, -, -, -, -, -, -, -, -, -, e0, e1, -⟩ := idx_facts t
  show (cfg0.win 6).cut (grid0.coords t) ((dats m 0 c).after 6 t) = _
  rw [after6]
  unfold hBlock
  rw [View.canon_unit_zero hz]
  simp only [View.ld_unit_zero (S := S128x1024) hz, View.ld_unit_zero (S := S1024x4096) hz, View.ld_unit_zero (S := S1x4096) hz]
  funext y
  obtain ⟨p, j, rfl⟩ : ∃ (p : Fin 128) (j : Fin 1024), y = ix2 p j := ⟨y 0, y 1, eq_ix2 (n0 := 128) (n1 := 1024) y⟩
  show k0_pay3 (F := Ideal) (blockAt m c 0 t) (blockAt m c 1 t) (blockAt m c 3 t) (blockAt m c 4 t) (blockAt m c 5 t) (blockAt m c 2 t) (ix2 p j)
      = hiddenNew (m ((c : Thread nD τ).loc main_arg0)) (m ((c : Thread nD τ).loc main_arg1)) (m ((c : Thread nD τ).loc main_arg2)) (stackW m c) (stackB m c) (((cfg0.win 6).blk t).view.emb (ix2 p j))
  have hemb : ((cfg0.win 6).blk t).view.emb (ix2 p j) = ix2 (row t p) j := by
    funext a; apply Fin.ext
    match a with
    | ⟨0, _⟩ => show win0_6.index t (0 : Fin 2) * 128 + 1 * p.val = 128 * t.val + p.val; omega
    | ⟨1, _⟩ => show win0_6.index t (1 : Fin 2) * 1024 + 1 * j.val = j.val; omega
  rw [hemb, hiddenNew_ix2]
  exact hidden_of_blocks (m ((c : Thread nD τ).loc main_arg0)) (m ((c : Thread nD τ).loc main_arg1)) (m ((c : Thread nD τ).loc main_arg2)) (stackW m c) (stackB m c) (blockAt m c 0 t) (blockAt m c 1 t) (blockAt m c 2 t) (blockAt m c 3 t) (blockAt m c 4 t) (blockAt m c 5 t) (row t p) p (x_block m c t p) (h_block m c t p) (c_block m c t p) (wx_block m c t) (wh_block m c t) (b_block m c t) j

/-- An index of the hidden array is in point `t`'s block iff each coordinate is in the block's range. -/
theorem mem_blk_hidden (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v9_0).slice (win0_6.rect t)).set ↔ _
  rw [View.set_slice_whole, Rect.mem_set_unit]
  exact Iff.rfl

/-- Row `r` of the hidden array lies in the block of point `r / 128`: the 64 blocks tile the array. -/
theorem cover_hidden (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 128 < cfg0.N := by rw [N_eq]; omega
  obtain ⟨-, -, -, -, -, -, -, -, -, -, -, -, e0, e1, -⟩ := idx_facts ⟨(i 0).val / 128, hN⟩
  refine ⟨⟨(i 0).val / 128, hN⟩, flush0_6 _, ?_⟩
  rw [mem_blk_hidden]
  intro a
  match a with
  | ⟨0, _⟩ =>
    show win0_6.index ⟨(i 0).val / 128, hN⟩ (0 : Fin 2) * 128 ≤ (i 0).val ∧ (i 0).val < win0_6.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_6.index ⟨(i 0).val / 128, hN⟩ (1 : Fin 2) * 1024 ≤ (i 1).val ∧ (i 1).val < win0_6.index ⟨(i 0).val / 128, hN⟩ (1 : Fin 2) * 1024 + 1024
    rw [e1]; omega

/-- The hidden array after the run is the specification's. -/
theorem final_hidden (c : Dev nD) : (dats m 0 c).arrAt 6 cfg0.N = hiddenNew (m ((c : Thread nD τ).loc main_arg0)) (m ((c : Thread nD τ).loc main_arg1)) (m ((c : Thread nD τ).loc main_arg2)) (stackW m c) (stackB m c) :=
  (dats m 0 c).arrAt_eq_of_cover 6 _ (fun t _ => flushed_hidden m c t) (cover_hidden c)

/-- What point `t` writes back into the cell array is rows 128 t … 128 t + 127 of the specification's. -/
theorem flushed_cell (c : Dev nD) (t : Fin cfg0.N) :
    (dats m 0 c).flushed 7 t = ((cfg0.win 7).blk t).view.read (Elt Ideal) (cellNew (m ((c : Thread nD τ).loc main_arg0)) (m ((c : Thread nD τ).loc main_arg1)) (m ((c : Thread nD τ).loc main_arg2)) (stackW m c) (stackB m c)) := by
  obtain ⟨-, -, -, -, -, -, -, -, -, -, -, -, -, -, e0, e1⟩ := idx_facts t
  show (cfg0.win 7).cut (grid0.coords t) ((dats m 0 c).after 7 t) = _
  rw [after7]
  unfold cBlock
  rw [View.canon_unit_zero hz]
  simp only [View.ld_unit_zero (S := S128x1024) hz, View.ld_unit_zero (S := S1024x4096) hz, View.ld_unit_zero (S := S1x4096) hz]
  funext y
  obtain ⟨p, j, rfl⟩ : ∃ (p : Fin 128) (j : Fin 1024), y = ix2 p j := ⟨y 0, y 1, eq_ix2 (n0 := 128) (n1 := 1024) y⟩
  show k0_pay2 (F := Ideal) (blockAt m c 0 t) (blockAt m c 1 t) (blockAt m c 3 t) (blockAt m c 4 t) (blockAt m c 5 t) (blockAt m c 2 t) (ix2 p j)
      = cellNew (m ((c : Thread nD τ).loc main_arg0)) (m ((c : Thread nD τ).loc main_arg1)) (m ((c : Thread nD τ).loc main_arg2)) (stackW m c) (stackB m c) (((cfg0.win 7).blk t).view.emb (ix2 p j))
  have hemb : ((cfg0.win 7).blk t).view.emb (ix2 p j) = ix2 (row t p) j := by
    funext a; apply Fin.ext
    match a with
    | ⟨0, _⟩ => show win0_7.index t (0 : Fin 2) * 128 + 1 * p.val = 128 * t.val + p.val; omega
    | ⟨1, _⟩ => show win0_7.index t (1 : Fin 2) * 1024 + 1 * j.val = j.val; omega
  rw [hemb, cellNew_ix2]
  exact cell_of_blocks (m ((c : Thread nD τ).loc main_arg0)) (m ((c : Thread nD τ).loc main_arg1)) (m ((c : Thread nD τ).loc main_arg2)) (stackW m c) (stackB m c) (blockAt m c 0 t) (blockAt m c 1 t) (blockAt m c 2 t) (blockAt m c 3 t) (blockAt m c 4 t) (blockAt m c 5 t) (row t p) p (x_block m c t p) (h_block m c t p) (c_block m c t p) (wx_block m c t) (wh_block m c t) (b_block m c t) j

/-- An index of the cell array is in point `t`'s block iff each coordinate is in the block's range. -/
theorem mem_blk_cell (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v9_1).slice (win0_7.rect t)).set ↔ _
  rw [View.set_slice_whole, Rect.mem_set_unit]
  exact Iff.rfl

/-- Row `r` of the cell array lies in the block of point `r / 128`: the 64 blocks tile the array. -/
theorem cover_cell (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 128 < cfg0.N := by rw [N_eq]; omega
  obtain ⟨-, -, -, -, -, -, -, -, -, -, -, -, -, -, e0, e1⟩ := idx_facts ⟨(i 0).val / 128, hN⟩
  refine ⟨⟨(i 0).val / 128, hN⟩, flush0_7 _, ?_⟩
  rw [mem_blk_cell]
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, hN⟩ (1 : Fin 2) * 1024 ≤ (i 1).val ∧ (i 1).val < win0_7.index ⟨(i 0).val / 128, hN⟩ (1 : Fin 2) * 1024 + 1024
    rw [e1]; omega

/-- The cell array after the run is the specification's. -/
theorem final_cell (c : Dev nD) : (dats m 0 c).arrAt 7 cfg0.N = cellNew (m ((c : Thread nD τ).loc main_arg0)) (m ((c : Thread nD τ).loc main_arg1)) (m ((c : Thread nD τ).loc main_arg2)) (stackW m c) (stackB m c) :=
  (dats m 0 c).arrAt_eq_of_cover 7 _ (fun t _ => flushed_cell m c t) (cover_cell c)

/-! ## The run, read -/

/-- Every weakly fair execution of the idealized kernel terminates with the first result at the specification's new
    hidden state, the second at its new cell state — over the stacked weights and bias of the arguments — and the
    eleven arguments unchanged. -/
theorem run : θ_run defs (onTc (τ := τ) (main (F := Ideal))) ⟨m, fun _ => 0, ρ⟩ fun r => ∀ c : Dev nD,
      r.2.mem ((c : Thread nD τ).loc main_v9_0) = hiddenNew (m ((c : Thread nD τ).loc main_arg0)) (m ((c : Thread nD τ).loc main_arg1)) (m ((c : Thread nD τ).loc main_arg2)) (stackW m c) (stackB m c)
      ∧ r.2.mem ((c : Thread nD τ).loc main_v9_1) = cellNew (m ((c : Thread nD τ).loc main_arg0)) (m ((c : Thread nD τ).loc main_arg1)) (m ((c : Thread nD τ).loc main_arg2)) (stackW m c) (stackB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final_hidden m c), ((h c).1 7).trans (final_cell m c),
      ((h c).1 0).trans (((dats m 0 c).arrAt_in 0 rfl _).trans ((A_eq m c 0).trans (entry_main_arg0 m c))),
      ((h c).1 1).trans (((dats m 0 c).arrAt_in 1 rfl _).trans ((A_eq m c 1).trans (entry_main_arg1 m c))),
      ((h c).1 2).trans (((dats m 0 c).arrAt_in 2 rfl _).trans ((A_eq m c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩)
    (run_main m ρ)

end Cert.KernelIdeal.CellValue

end
-- ==== Proof.RefValue.lean ====
/-
  The reference's two results are the specification's arrays.
-/
import proofs.«147682_j88639535055293_1_alg».proof.Proof.Gen.ReferenceIdeal.Read
import proofs.«147682_j88639535055293_1_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

section Pieces

variable (x0 x1 x2 : (⟨S8192x1024, .f32⟩ : BufTy).Contents (Elt Ideal))
  (x3 : (⟨S1024x2048, .f32⟩ : BufTy).Contents (Elt Ideal)) (x4 : (⟨S1024, .f32⟩ : BufTy).Contents (Elt Ideal))
  (x5 : (⟨S1024x2048, .f32⟩ : BufTy).Contents (Elt Ideal)) (x6 : (⟨S1024, .f32⟩ : BufTy).Contents (Elt Ideal))
  (x7 : (⟨S1024x2048, .f32⟩ : BufTy).Contents (Elt Ideal)) (x8 : (⟨S1024, .f32⟩ : BufTy).Contents (Elt Ideal))
  (x9 : (⟨S1024x2048, .f32⟩ : BufTy).Contents (Elt Ideal)) (x10 : (⟨S1024, .f32⟩ : BufTy).Contents (Elt Ideal))

/-- The joined row [x, h_prev] at a column of its first half is x there. -/
theorem comb_lo (r : Fin 8192) (k : Fin 1024) :
    val_main_v0 (F := Ideal) x0 x1 (ix2 r (Cert.Spec.lo k)) = x0 (ix2 r k) := by
  unfold val_main_v0
  exact concatenate_pair_apply_left 1 x0 x1 concatenates_S8192x1024_S8192x1024_S8192x2048_d1
    (ix2 r (Cert.Spec.lo k)) rfl (ix2 r k) (fun b => match b with
      | ⟨0, _⟩ => rfl
      | ⟨1, _⟩ => rfl)

/-- The joined row [x, h_prev] at a column of its second half is h_prev at that column less 1024. -/
theorem comb_hi (r : Fin 8192) (k : Fin 1024) :
    val_main_v0 (F := Ideal) x0 x1 (ix2 r (Cert.Spec.hi k)) = x1 (ix2 r k) := by
  unfold val_main_v0
  exact concatenate_pair_apply_right 1 x0 x1 concatenates_S8192x1024_S8192x1024_S8192x2048_d1
    (ix2 r (Cert.Spec.hi k)) rfl rfl (ix2 r k) (fun b hb => match b, hb with
      | ⟨0, _⟩, _ => rfl
      | ⟨1, _⟩, hb => absurd rfl hb)
    (by show k.val + 1024 = 1024 + k.val; omega)

/-- The left operand of the product, at output position (r, n) and summation index k, is the joined row r at column k. -/
theorem lidx_eq (r : Fin 8192) (n : Fin 4096) (k : Fin 2048) : lidx_main_v4 (ix2 r n) k = ix2 r k :=
  funext fun a => Fin.ext (by match a with | ⟨0, _⟩ => rfl | ⟨1, _⟩ => rfl)

/-- The right operand there, read back through the transposition, is W at (n, k). -/
theorem ridx_eq (r : Fin 8192) (n : Fin 4096) (k : Fin 2048) : idx_main_v3 (ridx_main_v4 (ix2 r n) k) = ix2 n k :=
  funext fun a => Fin.ext (by match a with | ⟨0, _⟩ => rfl | ⟨1, _⟩ => rfl)

/-- The bias broadcast over rows, read back through its two steps, is b at n. -/
theorem bidx_eq (r : Fin 8192) (n : Fin 4096) : idx_main_v5 (idx_main_v6 (ix2 r n)) = ix1 n :=
  funext fun a => Fin.ext (by match a with | ⟨0, _⟩ => rfl)

/-- The reference's pre-activation n of row r is the specification's: the product's sum over the 2048 joined columns
    splits into the x half and the h_prev half. -/
theorem pre_eq (r : Fin 8192) (n : Fin 4096) :
    val_main_v7 (F := Ideal) x0 x1 x3 x4 x5 x6 x7 x8 x9 x10 (ix2 r n)
      = Cert.Spec.gate x0 x1 (val_main_v1 (F := Ideal) x3 x5 x7 x9) (val_main_v2 (F := Ideal) x4 x6 x8 x10) r n := by
  rw [val_main_v7_apply, val_main_v4_apply, val_main_v6_apply, val_main_v5_apply, bidx_eq, Cert.Spec.sum_halves]
  unfold Cert.Spec.gate
  rw [Ideal.addf_def]
  congr 1
  congr 1
  · refine Finset.sum_congr rfl fun k _ => ?_
    rw [val_main_v3_apply, lidx_eq, ridx_eq, comb_lo]
  · refine Finset.sum_congr rfl fun k _ => ?_
    rw [val_main_v3_apply, lidx_eq, ridx_eq, comb_hi]

/-- Column j of the first slice is pre-activation column j. -/
theorem sidx0 (r : Fin 8192) (j : Fin 1024) : idx_main_v8 (ix2 r j) = ix2 r (Cert.Spec.col 0 j) :=
  funext fun a => Fin.ext (by
    match a with
    | ⟨0, _⟩ => rfl
    | ⟨1, _⟩ => show j.val = 1024 * 0 + j.val; omega)

/-- Column j of the second slice is pre-activation column 1024 + j. -/
theorem sidx1 (r : Fin 8192) (j : Fin 1024) : idx_main_v9 (ix2 r j) = ix2 r (Cert.Spec.col 1 j) :=
  funext fun a => Fin.ext (by
    match a with
    | ⟨0, _⟩ => rfl
    | ⟨1, _⟩ => show 1024 + j.val = 1024 * 1 + j.val; omega)

/-- Column j of the third slice is pre-activation column 2048 + j. -/
theorem sidx2 (r : Fin 8192) (j : Fin 1024) : idx_main_v10 (ix2 r j) = ix2 r (Cert.Spec.col 2 j) :=
  funext fun a => Fin.ext (by
    match a with
    | ⟨0, _⟩ => rfl
    | ⟨1, _⟩ => show 2048 + j.val = 1024 * 2 + j.val; omega)

/-- Column j of the fourth slice is pre-activation column 3072 + j. -/
theorem sidx3 (r : Fin 8192) (j : Fin 1024) : idx_main_v11 (ix2 r j) = ix2 r (Cert.Spec.col 3 j) :=
  funext fun a => Fin.ext (by
    match a with
    | ⟨0, _⟩ => rfl
    | ⟨1, _⟩ => show 3072 + j.val = 1024 * 3 + j.val; omega)

/-- The reference's sigmoid, one over one plus the exponential of the negation with the literal 1.0 for both ones, is
    the logistic function. -/
theorem sigmoid_eq (g : EReal) :
    FloatOps.hostDivf (F := Ideal) (φ := .f32) (FloatOps.ofBits .f32 0x3F800000#32)
        (FloatOps.addf (FloatOps.ofBits .f32 0x3F800000#32) (FloatOps.hostUnary .exp (FloatOps.hostNegf g)))
      = Ideal.logistic g := by
  rw [Ideal.hostDivf_def, Ideal.addf_def, Ideal.hostUnary_exp_def, Ideal.hostNegf_def, Ideal.negf_def, Ideal.ofBits_def,
    Ideal.ofBits_one_f32]
  rfl

/-- The input gate: the sigmoid of the first slice. -/
theorem gate_i (r : Fin 8192) (j : Fin 1024) :
    val_main_v17 (F := Ideal) x0 x1 x3 x4 x5 x6 x7 x8 x9 x10 (ix2 r j)
      = Ideal.logistic (Cert.Spec.gate x0 x1 (val_main_v1 (F := Ideal) x3 x5 x7 x9) (val_main_v2 (F := Ideal) x4 x6 x8 x10) r (Cert.Spec.col 0 j)) := by
  rw [val_main_v17_apply, val_main_v16_apply, val_main_cst_0_apply, val_main_v15_apply, val_main_v14_apply, val_main_cst_apply,
    val_main_v13_apply, val_main_v12_apply, val_main_v8_apply, sidx0, pre_eq, sigmoid_eq]

/-- The forget gate: the sigmoid of the second slice. -/
theorem gate_f (r : Fin 8192) (j : Fin 1024) :
    val_main_v23 (F := Ideal) x0 x1 x3 x4 x5 x6 x7 x8 x9 x10 (ix2 r j)
      = Ideal.logistic (Cert.Spec.gate x0 x1 (val_main_v1 (F := Ideal) x3 x5 x7 x9) (val_main_v2 (F := Ideal) x4 x6 x8 x10) r (Cert.Spec.col 1 j)) := by
  rw [val_main_v23_apply, val_main_v22_apply, val_main_cst_2_apply, val_main_v21_apply, val_main_v20_apply, val_main_cst_1_apply,
    val_main_v19_apply, val_main_v18_apply, val_main_v9_apply, sidx1, pre_eq, sigmoid_eq]

/-- The output gate: the sigmoid of the third slice. -/
theorem gate_o (r : Fin 8192) (j : Fin 1024) :
    val_main_v29 (F := Ideal) x0 x1 x3 x4 x5 x6 x7 x8 x9 x10 (ix2 r j)
      = Ideal.logistic (Cert.Spec.gate x0 x1 (val_main_v1 (F := Ideal) x3 x5 x7 x9) (val_main_v2 (F := Ideal) x4 x6 x8 x10) r (Cert.Spec.col 2 j)) := by
  rw [val_main_v29_apply, val_main_v28_apply, val_main_cst_4_apply, val_main_v27_apply, val_main_v26_apply, val_main_cst_3_apply,
    val_main_v25_apply, val_main_v24_apply, val_main_v10_apply, sidx2, pre_eq, sigmoid_eq]

/-- The candidate: the hyperbolic tangent of the fourth slice. -/
theorem cand (r : Fin 8192) (j : Fin 1024) :
    val_main_v30 (F := Ideal) x0 x1 x3 x4 x5 x6 x7 x8 x9 x10 (ix2 r j)
      = Ideal.tanh (Cert.Spec.gate x0 x1 (val_main_v1 (F := Ideal) x3 x5 x7 x9) (val_main_v2 (F := Ideal) x4 x6 x8 x10) r (Cert.Spec.col 3 j)) := by
  rw [val_main_v30_apply, val_main_v11_apply, sidx3, pre_eq, Ideal.hostUnary_tanh_def]

/-- The new cell state at (r, j): forget gate times the old cell plus input gate times candidate. -/
theorem cell_at (r : Fin 8192) (j : Fin 1024) :
    val_main_v33 (F := Ideal) x0 x1 x2 x3 x4 x5 x6 x7 x8 x9 x10 (ix2 r j)
      = Cert.Spec.cellAt x0 x1 x2 (val_main_v1 (F := Ideal) x3 x5 x7 x9) (val_main_v2 (F := Ideal) x4 x6 x8 x10) r j := by
  rw [val_main_v33_apply, val_main_v31_apply, val_main_v32_apply, gate_f, gate_i, cand, Ideal.addf_def, Ideal.mulf_def,
    Ideal.mulf_def]
  rfl

end Pieces

/-- The reference's new cell state is the specification's, over the stacked weights and bias the reference itself forms. -/
theorem cell_eq (x0 x1 x2 : (⟨S8192x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) :
    val_main_v33 (F := Ideal) x0 x1 x2 x3 x4 x5 x6 x7 x8 x9 x10
      = Cert.Spec.cellNew x0 x1 x2 (val_main_v1 (F := Ideal) x3 x5 x7 x9) (val_main_v2 (F := Ideal) x4 x6 x8 x10) := by
  funext i
  obtain ⟨r, j, rfl⟩ : ∃ (r : Fin 8192) (j : Fin 1024), i = ix2 r j := ⟨i 0, i 1, eq_ix2 i⟩
  rw [Cert.Spec.cellNew_ix2, cell_at]

/-- The reference's new hidden state is the specification's. -/
theorem hidden_eq (x0 x1 x2 : (⟨S8192x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) :
    val_main_v35 (F := Ideal) x0 x1 x2 x3 x4 x5 x6 x7 x8 x9 x10
      = Cert.Spec.hiddenNew x0 x1 x2 (val_main_v1 (F := Ideal) x3 x5 x7 x9) (val_main_v2 (F := Ideal) x4 x6 x8 x10) := by
  funext i
  obtain ⟨r, j, rfl⟩ : ∃ (r : Fin 8192) (j : Fin 1024), i = ix2 r j := ⟨i 0, i 1, eq_ix2 i⟩
  rw [Cert.Spec.hiddenNew_ix2, val_main_v35_apply, val_main_v34_apply, gate_o, cell_at, Ideal.mulf_def,
    Ideal.hostUnary_tanh_def]
  rfl

end Cert.ReferenceIdeal.RefValue

end
-- ==== Proof.lean ====
/-
  One LSTM-cell step, fused into a single kernel, against its array-level reference: the two compute the same
  new hidden state and new cell state over the extended reals.

  Both programs stack the four gates' weight matrices into W (4096 × 2048) and their biases into b (4096) by the
  same concatenations, so W and b are carried as the same arrays on both sides and never opened. The reference
  multiplies the row [x | h_prev] (2048 columns) by Wᵀ in one product; the kernel multiplies x by the transposed
  left half of W's columns and h_prev by the transposed right half and adds the two — the same 2048 products
  summed in two groups of 1024, equal in any commutative monoid, so no finiteness of the inputs is used. The
  bias is added after the product on both sides. The kernel's logistic function and the reference's
  1 / (1 + exp(−g)) are one function on the extended reals by definition, tanh is the same function on both
  sides, and the blend c_new = σ(g_f)·c_prev + σ(g_i)·tanh(g_c), h_new = σ(g_o)·tanh(c_new) is written the same way.
  A change of float format is the identity on the extended reals, so the kernel's bf16 operands change nothing.

  The kernel walks 64 blocks of 128 batch rows; each block's two results are the specification's rows, and the
  blocks tile the batch, so its result arrays are the specification's (Proof/KernelValue.lean over the body's
  values read at an index, Proof/KernelPayload.lean); the reference's results are the specification's by reading
  its operations one at a time (Proof/RefValue.lean). The three frames: each kernel program by the run of its one
  region over proof data that names what every point leaves in each block (Proof/FrameIdeal.lean,
  Proof/FrameBits.lean); the reference by its generated run. The idealization rewrote nothing, so there is
  nothing to preserve.
-/
import proofs.«147682_j88639535055293_1_alg».proof.Defs
import proofs.«147682_j88639535055293_1_alg».proof.Proof.Gen.Kernel
import proofs.«147682_j88639535055293_1_alg».proof.Proof.Gen.KernelIdeal
import proofs.«147682_j88639535055293_1_alg».proof.Proof.Gen.ReferenceIdeal
import proofs.«147682_j88639535055293_1_alg».proof.Proof.Gen.Pre_finite_inputs
import proofs.«147682_j88639535055293_1_alg».proof.Proof.Gen.ReferenceIdeal.Run
import proofs.«147682_j88639535055293_1_alg».proof.Proof.Gen.ReferenceIdeal.Read
import proofs.«147682_j88639535055293_1_alg».proof.Proof.FrameBits
import proofs.«147682_j88639535055293_1_alg».proof.Proof.FrameIdeal
import proofs.«147682_j88639535055293_1_alg».proof.Proof.KernelValue
import proofs.«147682_j88639535055293_1_alg».proof.Proof.RefValue

noncomputable section

namespace Cert.Proof

open Idealize.ShloMosaic Idealize.ShloMosaic.TcCoe Idealize.SL.Sem

/-- The word-level kernel runs to the end, faults nowhere, and leaves its arguments unchanged. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the eleven arguments both programs end with the specification's new hidden state and new
    cell state of those arguments: the kernel by its blocks, the reference by its operations read at an index; the
    two stackings of the weights and biases are the same concatenations of the same arrays. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v35_eq, Cert.ReferenceIdeal.RefValue.hidden_eq, h0, h1, h2, h3, h4, h5, h6, h7, h8, h9, h10]
    rfl
  · obtain ⟨h0, h1, h2, h3, h4, h5, h6, h7, h8, h9, h10⟩ := hagree c
    rw [Cert.ReferenceIdeal.Read.val_main_v33_eq, Cert.ReferenceIdeal.RefValue.cell_eq, h0, h1, h2, h3, h4, h5, h6, h7, h8, h9, h10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
